-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x1024 : Shape := ⟨2, ![512, 1024]⟩
abbrev S1024 : Shape := ⟨1, ![1024]⟩
abbrev S1024x256 : Shape := ⟨2, ![1024, 256]⟩
abbrev S256 : Shape := ⟨1, ![256]⟩
abbrev S1024x50 : Shape := ⟨2, ![1024, 50]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S1024x50 : S_.BroadcastsInDim S1024x50 (![] : Fin 0 → Fin S1024x50.rank)
  reducesTo_S1024x50_S_d0_1 : S1024x50.ReducesTo [0, 1] S_

variable [Facts]

def fn_part1 {F : FTy → Type} [FloatOps F] (main_arg4 : FVec F S256 .f32) (main_arg5 : IVec S1024x50 32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_c_8 : IVec S_ 32 := constantI S_ 32 100000#32
  let main_v24 : IVec S1024x50 32 := broadcastInDim S1024x50 ![] bcast_S_S1024x50 main_c_8
  let main_v25 : IVec S1024x50 1 := cmpi .slt main_arg5 main_v24
  let main_c_9 : IVec S_ 1 := constantI S_ 1 1#1
  let main_v26 : IVec S_ 1 := (fun x v => Host.reduce IntOp.andi x v reducesTo_S1024x50_S_d0_1 h_S_) main_v25 main_c_9
  let main_v27 : IVec S_ 1 := andi main_v23 main_v26
  main_v27

def fn {F : FTy → Type} [FloatOps F] (main_arg0 : FVec F S100000x512 .f32) (main_arg1 : FVec F S512x1024 .f32) (main_arg2 : FVec F S1024 .f32) (main_arg3 : FVec F S1024x256 .f32) (main_arg4 : FVec F S256 .f32) (main_arg5 : IVec S1024x50 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_v13 main_v16
-- ==== Kernel.lean ====
abbrev S100000x512 : Shape := ⟨2, ![100000, 512]⟩
abbrev S512x1024 : Shape := ⟨2, ![512, 1024]⟩
abbrev S1024 : Shape := ⟨1, ![1024]⟩
abbrev S1024x256 : Shape := ⟨2, ![1024, 256]⟩
abbrev S256 : Shape := ⟨1, ![256]⟩
abbrev S1024x50 : Shape := ⟨2, ![1024, 50]⟩
abbrev S_ : Shape := ⟨0, ![]⟩
abbrev S51200 : Shape := ⟨1, ![51200]⟩
abbrev S51200x1 : Shape := ⟨2, ![51200, 1]⟩
abbrev S1 : Shape := ⟨1, ![1]⟩
abbrev S1x1 : Shape := ⟨2, ![1, 1]⟩
abbrev S51200x512 : Shape := ⟨2, ![51200, 512]⟩
abbrev S1x1024 : Shape := ⟨2, ![1, 1024]⟩
abbrev S1x256 : Shape := ⟨2, ![1, 256]⟩
abbrev S51200x256 : Shape := ⟨2, ![51200, 256]⟩
abbrev S512x512 : Shape := ⟨2, ![512, 512]⟩
abbrev S512x1 : Shape := ⟨2, ![512, 1]⟩
abbrev S512x256 : Shape := ⟨2, ![512, 256]⟩
abbrev S512 : Shape := ⟨1, ![512]⟩
abbrev S1024x50x256 : Shape := ⟨3, ![1024, 50, 256]⟩

abbrev nBuf : Space → Nat
  | .hbm => 43
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S512x1024, .f32⟩
  | .hbm, ⟨2, _⟩ => ⟨S1024, .f32⟩
  | .hbm, ⟨3, _⟩ => ⟨S1024x256, .f32⟩
  | .hbm, ⟨4, _⟩ => ⟨S256, .f32⟩
  | .hbm, ⟨5, _⟩ => ⟨S1024x50, .i32⟩
  | .hbm, ⟨6, _⟩ => ⟨S_, .i32⟩
  | .hbm, ⟨7, _⟩ => ⟨S1024x50, .i32⟩
  | .hbm, ⟨8, _⟩ => ⟨S1024x50, .i1⟩
  | .hbm, ⟨9, _⟩ => ⟨S_, .i32⟩
  | .hbm, ⟨10, _⟩ => ⟨S1024x50, .i32⟩
  | .hbm, ⟨11, _⟩ => ⟨S1024x50, .i32⟩
  | .hbm, ⟨12, _⟩ => ⟨S51200, .i32⟩
  | .hbm, ⟨13, _⟩ => ⟨S_, .i32⟩
  | .hbm, ⟨14, _⟩ => ⟨S51200, .i32⟩
  | .hbm, ⟨15, _⟩ => ⟨S51200, .i1⟩
  | .hbm, ⟨16, _⟩ => ⟨S_, .i32⟩
  | .hbm, ⟨17, _⟩ => ⟨S51200, .i32⟩
  | .hbm, ⟨18, _⟩ => ⟨S51200, .i32⟩
  | .hbm, ⟨19, _⟩ => ⟨S51200, .i32⟩
  | .hbm, ⟨20, _⟩ => ⟨S51200x1, .i32⟩
  | .hbm, ⟨21, _⟩ => ⟨S1, .i32⟩
  | .hbm, ⟨22, _⟩ => ⟨S_, .i32⟩
  | .hbm, ⟨23, _⟩ => ⟨S51200x1, .i32⟩
  | .hbm, ⟨24, _⟩ => ⟨S51200x1, .i1⟩
  | .hbm, ⟨25, _⟩ => ⟨S1x1, .i32⟩
  | .hbm, ⟨26, _⟩ => ⟨S51200x1, .i32⟩
  | .hbm, ⟨27, _⟩ => ⟨S51200x1, .i1⟩
  | .hbm, ⟨28, _⟩ => ⟨S51200x1, .i1⟩
  | .hbm, ⟨29, _⟩ => ⟨S_, .i1⟩
  | .hbm, ⟨30, _⟩ => ⟨S51200, .i1⟩
  | .hbm, ⟨31, _⟩ => ⟨S51200x512, .f32⟩
  | .hbm, ⟨32, _⟩ => ⟨S51200x512, .i1⟩
  | .hbm, ⟨33, _⟩ => ⟨S_, .f32⟩
  | .hbm, ⟨34, _⟩ => ⟨S51200x512, .f32⟩
  | .hbm, ⟨35, _⟩ => ⟨S51200x512, .f32⟩
  | .hbm, ⟨36, _⟩ => ⟨S1024x50, .i1⟩
  | .hbm, ⟨37, _⟩ => ⟨S51200x1, .i1⟩
  | .hbm, ⟨38, _⟩ => ⟨S51200x1, .f32⟩
  | .hbm, ⟨39, _⟩ => ⟨S1x1024, .f32⟩
  | .hbm, ⟨40, _⟩ => ⟨S1x256, .f32⟩
  | .hbm, ⟨41, _⟩ => ⟨S51200x256, .f32⟩
  | .hbm, ⟨42, _⟩ => ⟨S1024x50x256, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S1x1024, .f32⟩
  | .local _ .vmem, ⟨4, _⟩ => ⟨S1024x256, .f32⟩
  | .local _ .vmem, ⟨5, _⟩ => ⟨S1x256, .f32⟩
  | .local _ .vmem, ⟨6, _⟩ => ⟨S512x1, .f32⟩
  | .local _ .vmem, ⟨7, _⟩ => ⟨S512x1, .f32⟩
  | .local _ .vmem, ⟨8, _⟩ => ⟨S512x256, .f32⟩
  | .local _ .vmem, ⟨9, _⟩ => ⟨S512x256, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1024x50 : S_.BroadcastsInDim S1024x50 (![] : Fin 0 → Fin S1024x50.rank)
  shapeCasts_S1024x50_S51200 : S1024x50.ShapeCasts S51200
  bcast_S_S51200 : S_.BroadcastsInDim S51200 (![] : Fin 0 → Fin S51200.rank)
  bcast_S51200_S51200x1_0 : S51200.BroadcastsInDim S51200x1 (![0] : Fin 1 → Fin S51200x1.rank)
  bcast_S_S51200x1 : S_.BroadcastsInDim S51200x1 (![] : Fin 0 → Fin S51200x1.rank)
  bcast_S1_S1x1_1 : S1.BroadcastsInDim S1x1 (![1] : Fin 1 → Fin S1x1.rank)
  bcast_S1x1_S51200x1_0_1 : S1x1.BroadcastsInDim S51200x1 (![0, 1] : Fin 2 → Fin S51200x1.rank)
  reducesTo_S51200x1_S51200_d1 : S51200x1.ReducesTo [1] S51200
  h_S_ : 0 < S_.numel
  bcast_S51200_S51200x512_0 : S51200.BroadcastsInDim S51200x512 (![0] : Fin 1 → Fin S51200x512.rank)
  bcast_S_S51200x512 : S_.BroadcastsInDim S51200x512 (![] : Fin 0 → Fin S51200x512.rank)
  shapeCasts_S1024x50_S51200x1 : S1024x50.ShapeCasts S51200x1
  shapeCasts_S1024_S1x1024 : S1024.ShapeCasts S1x1024
  shapeCasts_S256_S1x256 : S256.ShapeCasts S1x256
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  reduces_S512x256_S512 : S512x256.Reduces [1] S512
  shapeCasts_S512_S512x1 : S512.ShapeCasts S512x1
  broadcasts_S512x1_S512x256 : S512x1.Broadcasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S51200x256_S1024x50x256 : S51200x256.ShapeCasts S1024x50x256
  gather_S100000x512_S51200x1_S51200x512_1_0_n_n_0_1_1512_wf : GatherDims.WF S100000x512 S51200x1 S51200x512 [1] [0] [] [0] [] 1 ![1, 512]
  dot_S512x512_S512x1024_S512x1024_1_0_0_1_n_n_wf : DotDims.WF S512x512 S512x1024 S512x1024 [1] [0] [0] [1] [] []
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S51200x512.size a
  hwx0_0 : ∀ i : grid0.Coords, EltTy.bits .f32 = 32 ∨ (Rect.block (s := S51200x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .f32 = 32 ∨ (Rect.block (s := S1024x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S51200x1.size a
  hwx0_5 : ∀ i : grid0.Coords, EltTy.bits .f32 = 32 ∨ (Rect.block (s := S51200x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S51200x256.size a
  hwx0_6 : ∀ i : grid0.Coords, EltTy.bits .f32 = 32 ∨ (Rect.block (s := S51200x256) S512x256.size (cc0_transform_6 i) (hinb0_6 i)).WholeWords (EltTy.packing .f32)

variable [Facts₀]

def gather_S100000x512_S51200x1_S51200x512_1_0_n_n_0_1_1512 : GatherDims S100000x512 S51200x1 S51200x512 where
  offsetDims := [1]
  collapsedSliceDims := [0]
  operandBatchingDims := []
  startIndicesBatchingDims := []
  startIndexMap := [0]
  indexVectorDim := 1
  sliceSizes := ![1, 512]
  wf := gather_S100000x512_S51200x1_S51200x512_1_0_n_n_0_1_1512_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_v5) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x512 : Shape := ⟨2, ![100000, 512]⟩
abbrev S512x1024 : Shape := ⟨2, ![512, 1024]⟩
abbrev S1024 : Shape := ⟨1, ![1024]⟩
abbrev S1024x256 : Shape := ⟨2, ![1024, 256]⟩
abbrev S256 : Shape := ⟨1, ![256]⟩
abbrev S1024x50 : Shape := ⟨2, ![1024, 50]⟩
abbrev S_ : Shape := ⟨0, ![]⟩
abbrev S51200 : Shape := ⟨1, ![51200]⟩
abbrev S51200x1 : Shape := ⟨2, ![51200, 1]⟩
abbrev S51200x512 : Shape := ⟨2, ![51200, 512]⟩
abbrev S51200x1024 : Shape := ⟨2, ![51200, 1024]⟩
abbrev S1x1024 : Shape := ⟨2, ![1, 1024]⟩
abbrev S51200x256 : Shape := ⟨2, ![51200, 256]⟩
abbrev S1x256 : Shape := ⟨2, ![1, 256]⟩
abbrev S1024x50x256 : Shape := ⟨3, ![1024, 50, 256]⟩
abbrev S1024x50x1 : Shape := ⟨3, ![1024, 50, 1]⟩

abbrev nBuf : Space → Nat
  | .hbm => 64
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x1024, .f32⟩
  | .hbm, ⟨2, _⟩ => ⟨S1024, .f32⟩
  | .hbm, ⟨3, _⟩ => ⟨S1024x256, .f32⟩
  | .hbm, ⟨4, _⟩ => ⟨S256, .f32⟩
  | .hbm, ⟨5, _⟩ => ⟨S1024x50, .i32⟩
  | .hbm, ⟨6, _⟩ => ⟨S_, .i32⟩
  | .hbm, ⟨7, _⟩ => ⟨S1024x50, .i32⟩
  | .hbm, ⟨8, _⟩ => ⟨S1024x50, .i1⟩
  | .hbm, ⟨9, _⟩ => ⟨S_, .i32⟩
  | .hbm, ⟨10, _⟩ => ⟨S1024x50, .i32⟩
  | .hbm, ⟨11, _⟩ => ⟨S1024x50, .i32⟩
  | .hbm, ⟨12, _⟩ => ⟨S51200, .i32⟩
  | .hbm, ⟨13, _⟩ => ⟨S_, .i32⟩
  | .hbm, ⟨14, _⟩ => ⟨S51200, .i32⟩
  | .hbm, ⟨15, _⟩ => ⟨S51200, .i1⟩
  | .hbm, ⟨16, _⟩ => ⟨S_, .i32⟩
  | .hbm, ⟨17, _⟩ => ⟨S51200, .i32⟩
  | .hbm, ⟨18, _⟩ => ⟨S51200, .i32⟩
  | .hbm, ⟨19, _⟩ => ⟨S51200, .i32⟩
  | .hbm, ⟨20, _⟩ => ⟨S51200x1, .i32⟩
  | .hbm, ⟨21, _⟩ => ⟨S51200x512, .f32⟩
  | .hbm, ⟨22, _⟩ => ⟨S51200x1024, .f32⟩
  | .hbm, ⟨23, _⟩ => ⟨S1x1024, .f32⟩
  | .hbm, ⟨24, _⟩ => ⟨S51200x1024, .f32⟩
  | .hbm, ⟨25, _⟩ => ⟨S51200x1024, .f32⟩
  | .hbm, ⟨26, _⟩ => ⟨S51200x1024, .f32⟩
  | .hbm, ⟨27, _⟩ => ⟨S51200x1024, .f32⟩
  | .hbm, ⟨28, _⟩ => ⟨S_, .f32⟩
  | .hbm, ⟨29, _⟩ => ⟨S51200x1024, .f32⟩
  | .hbm, ⟨30, _⟩ => ⟨S51200x1024, .f32⟩
  | .hbm, ⟨31, _⟩ => ⟨S51200x1024, .f32⟩
  | .hbm, ⟨32, _⟩ => ⟨S_, .f32⟩
  | .hbm, ⟨33, _⟩ => ⟨S51200x1024, .f32⟩
  | .hbm, ⟨34, _⟩ => ⟨S51200x1024, .f32⟩
  | .hbm, ⟨35, _⟩ => ⟨S51200x1024, .f32⟩
  | .hbm, ⟨36, _⟩ => ⟨S_, .f32⟩
  | .hbm, ⟨37, _⟩ => ⟨S51200x1024, .f32⟩
  | .hbm, ⟨38, _⟩ => ⟨S51200x1024, .f32⟩
  | .hbm, ⟨39, _⟩ => ⟨S_, .f32⟩
  | .hbm, ⟨40, _⟩ => ⟨S51200x1024, .f32⟩
  | .hbm, ⟨41, _⟩ => ⟨S51200x1024, .f32⟩
  | .hbm, ⟨42, _⟩ => ⟨S51200x1024, .f32⟩
  | .hbm, ⟨43, _⟩ => ⟨S51200x256, .f32⟩
  | .hbm, ⟨44, _⟩ => ⟨S1x256, .f32⟩
  | .hbm, ⟨45, _⟩ => ⟨S51200x256, .f32⟩
  | .hbm, ⟨46, _⟩ => ⟨S51200x256, .f32⟩
  | .hbm, ⟨47, _⟩ => ⟨S51200x256, .f32⟩
  | .hbm, ⟨48, _⟩ => ⟨S_, .f32⟩
  | .hbm, ⟨49, _⟩ => ⟨S51200, .f32⟩
  | .hbm, ⟨50, _⟩ => ⟨S51200x1, .f32⟩
  | .hbm, ⟨51, _⟩ => ⟨S51200x1, .f32⟩
  | .hbm, ⟨52, _⟩ => ⟨S_, .f32⟩
  | .hbm, ⟨53, _⟩ => ⟨S51200x1, .f32⟩
  | .hbm, ⟨54, _⟩ => ⟨S51200x1, .f32⟩
  | .hbm, ⟨55, _⟩ => ⟨S51200x256, .f32⟩
  | .hbm, ⟨56, _⟩ => ⟨S51200x256, .f32⟩
  | .hbm, ⟨57, _⟩ => ⟨S1024x50x256, .f32⟩
  | .hbm, ⟨58, _⟩ => ⟨S1024x50x1, .i1⟩
  | .hbm, ⟨59, _⟩ => ⟨S_, .f32⟩
  | .hbm, ⟨60, _⟩ => ⟨S_, .f32⟩
  | .hbm, ⟨61, _⟩ => ⟨S1024x50x256, .i1⟩
  | .hbm, ⟨62, _⟩ => ⟨S1024x50x256, .f32⟩
  | .hbm, ⟨63, _⟩ => ⟨S1024x50x256, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_v0 : Ref sig .tc := ⟨.hbm, 47, rfl⟩
abbrev main_call0_cst : Ref sig .tc := ⟨.hbm, 48, rfl⟩
abbrev main_call0_v1 : Ref sig .tc := ⟨.hbm, 49, rfl⟩
abbrev main_call0_v2 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v40 : Ref sig .tc := ⟨.hbm, 63, rfl⟩

abbrev nD : Nat := 1
abbrev τ : Topo := Topo.v7x

variable {F : FTy → Type} [FloatOps F]

class Facts₀ : Prop where
  bcast_S_S1024x50 : S_.BroadcastsInDim S1024x50 (![] : Fin 0 → Fin S1024x50.rank)
  shapeCasts_S1024x50_S51200 : S1024x50.ShapeCasts S51200
  bcast_S_S51200 : S_.BroadcastsInDim S51200 (![] : Fin 0 → Fin S51200.rank)
  bcast_S51200_S51200x1_0 : S51200.BroadcastsInDim S51200x1 (![0] : Fin 1 → Fin S51200x1.rank)
  bcast_S1024_S1x1024_1 : S1024.BroadcastsInDim S1x1024 (![1] : Fin 1 → Fin S1x1024.rank)
  bcast_S1x1024_S51200x1024_0_1 : S1x1024.BroadcastsInDim S51200x1024 (![0, 1] : Fin 2 → Fin S51200x1024.rank)
  bcast_S_S51200x1024 : S_.BroadcastsInDim S51200x1024 (![] : Fin 0 → Fin S51200x1024.rank)
  bcast_S256_S1x256_1 : S256.BroadcastsInDim S1x256 (![1] : Fin 1 → Fin S1x256.rank)
  bcast_S1x256_S51200x256_0_1 : S1x256.BroadcastsInDim S51200x256 (![0, 1] : Fin 2 → Fin S51200x256.rank)
  reducesTo_S51200x256_S51200_d1 : S51200x256.ReducesTo [1] S51200
  h_S_ : 0 < S_.numel
  bcast_S_S51200x1 : S_.BroadcastsInDim S51200x1 (![] : Fin 0 → Fin S51200x1.rank)
  bcast_S51200x1_S51200x256_0_1 : S51200x1.BroadcastsInDim S51200x256 (![0, 1] : Fin 2 → Fin S51200x256.rank)
  shapeCasts_S51200x256_S1024x50x256 : S51200x256.ShapeCasts S1024x50x256
  bcast_S1024x50_S1024x50x1_0_1 : S1024x50.BroadcastsInDim S1024x50x1 (![0, 1] : Fin 2 → Fin S1024x50x1.rank)
  bcast_S1024x50x1_S1024x50x256_0_1_2 : S1024x50x1.BroadcastsInDim S1024x50x256 (![0, 1, 2] : Fin 3 → Fin S1024x50x256.rank)
  bcast_S_S1024x50x256 : S_.BroadcastsInDim S1024x50x256 (![] : Fin 0 → Fin S1024x50x256.rank)
  gather_S100000x512_S51200x1_S51200x512_1_0_n_n_0_1_1512_wf : GatherDims.WF S100000x512 S51200x1 S51200x512 [1] [0] [] [0] [] 1 ![1, 512]
  dot_S51200x512_S512x1024_S51200x1024_1_0_0_1_n_n_wf : DotDims.WF S51200x512 S512x1024 S51200x1024 [1] [0] [0] [1] [] []
  dot_S51200x1024_S1024x256_S51200x256_1_0_0_1_n_n_wf : DotDims.WF S51200x1024 S1024x256 S51200x256 [1] [0] [0] [1] [] []

variable [Facts₀]

def gather_S100000x512_S51200x1_S51200x512_1_0_n_n_0_1_1512 : GatherDims S100000x512 S51200x1 S51200x512 where
  offsetDims := [1]
  collapsedSliceDims := [0]
  operandBatchingDims := []
  startIndicesBatchingDims := []
  startIndexMap := [0]
  indexVectorDim := 1
  sliceSizes := ![1, 512]
  wf := gather_S100000x512_S51200x1_S51200x512_1_0_n_n_0_1_1512_wf
def dot_S51200x512_S512x1024_S51200x1024_1_0_0_1_n_n : DotDims S51200x512 S512x1024 S51200x1024 where
  lhsContracting := [1]
  rhsContracting := [0]
  lhsNonContracting := [0]
  rhsNonContracting := [1]
  lhsBatch := []
  rhsBatch := []
  wf := dot_S51200x512_S512x1024_S51200x1024_1_0_0_1_n_n_wf
def dot_S51200x1024_S1024x256_S51200x256_1_0_0_1_n_n : DotDims S51200x1024 S1024x256 S51200x256 where
  lhsContracting := [1]
  rhsContracting := [0]
  lhsNonContracting := [0]
  rhsNonContracting := [1]
  lhsBatch := []
  rhsBatch := []
  wf := dot_S51200x1024_S1024x256_S51200x256_1_0_0_1_n_n_wf

class Facts : Prop extends Facts₀ where

variable [Facts]
-- ==== Proof.Head.lean ====
/-
  The projection head of one row, as a function on the extended reals.

  A row `x` of 512 entries goes through a first affine layer into 1024 hidden values, each passed through the
  tanh form of GELU, `h ↦ h · (1/2 · (1 + tanh (c · (h + a · h³))))`, then through a second affine layer into 256
  values `y`, and is scaled to unit length: `y / max (√(Σ y²)) ε`. The constants `a`, `c`, `1/2`, `1` and `ε` are
  kept as the binary32 words both programs carry; they are never evaluated.
-/
import Idealize.ShloMosaic.PureOps.Ideal

noncomputable section

namespace Cert.Head

open Idealize.ShloMosaic
open scoped BigOperators

/-- The tanh form of GELU at one value, the cube taken as `h · (h · h)`. -/
def gelu (h : EReal) : EReal :=
  h * (Ideal.ofBits .f32 0x3F000000#32 * (Ideal.ofBits .f32 0x3F800000#32
    + Ideal.tanh (Ideal.ofBits .f32 0x3F4C422A#32 * (h + Ideal.ofBits .f32 0x3D372713#32 * (h * (h * h))))))

variable (w1 : Fin 512 → Fin 1024 → EReal) (b1 : Fin 1024 → EReal) (w2 : Fin 1024 → Fin 256 → EReal) (b2 : Fin 256 → EReal)

/-- Hidden unit `n` of the row `x`: GELU of the first affine layer. -/
def hidden (x : Fin 512 → EReal) (n : Fin 1024) : EReal := gelu ((∑ k : Fin 512, x k * w1 k n) + b1 n)

/-- Output `j` of the second affine layer. -/
def proj (x : Fin 512 → EReal) (j : Fin 256) : EReal := (∑ n : Fin 1024, hidden w1 b1 x n * w2 n j) + b2 j

/-- The row's length, kept away from zero by `ε`. -/
def len (x : Fin 512 → EReal) : EReal :=
  max (Ideal.sqrt (∑ j : Fin 256, proj w1 b1 w2 b2 x j * proj w1 b1 w2 b2 x j)) (Ideal.ofBits .f32 0x2B8CBCCC#32)

/-- Output `j` of the row scaled to unit length. -/
def unitRow (x : Fin 512 → EReal) (j : Fin 256) : EReal := Ideal.div (proj w1 b1 w2 b2 x j) (len w1 b1 w2 b2 x)

/-- Row `50 b + p` of the 51200 = 1024 · 50 rows: the row of tag `(b, p)`. -/
abbrev rowOf (b : Fin 1024) (p : Fin 50) : Fin 51200 := ⟨b.val * 50 + p.val, by have := b.isLt; have := p.isLt; omega⟩

end Cert.Head

end
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.LibColumn.lean ====
/-
  A column of row values read at an index.

  A row reduction that keeps its reduced axis produces an `[a]` array given a trailing unit axis, `[a, 1]`, and then
  spread along that axis to `[a, b]`: entry `(i, 0)` of the cast is the array's entry `i`, and entry `(i, j)` of the
  spread column is the column's entry `(i, 0)`, whatever the sizes and the element type.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.KernelRow.lean ====
/-
  What the kernel's body computes, entry by entry.

  At one grid point the body holds 512 rows `x`, the two weight matrices, the two biases as `1 × n` rows and a
  `512 × 1` column of row factors. Entry `(r, j)` of what it stores is output `j` of the projection head of row `r`,
  scaled to unit length, times row `r`'s factor: the two matrix products are plain sums over the contracted axis,
  the changes of float format do nothing to an extended real, the activation is pointwise, and the row's length is
  the square root of the sum of the row's squares, kept away from zero.
-/
import proofs.«425311_j56495999811635_1_alg».proof.Proof.Gen.KernelIdeal.Skeleton
import proofs.«425311_j56495999811635_1_alg».proof.Proof.Head
import proofs.«425311_j56495999811635_1_alg».proof.Proof.LibPlainDot
import proofs.«425311_j56495999811635_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx
open scoped BigOperators

/-- A product of an `A × K` by a `K × B` operand of any two float formats into the zero accumulator, at `(p, q)`:
    the sum over `k` of `lhs (p, k) · rhs (k, q)`. -/
theorem matmul_zero_apply {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [LibPlainDot.eq_plain d hlc hrc hln hrn hlb hrb, Ideal.matmul_constant_zero_apply]
  exact LibPlainDot.plain_sum lhs rhs p q

variable (x0 : FVec Ideal S512x512 .f32) (x1 : FVec Ideal S512x1024 .f32) (x2 : FVec Ideal S1x1024 .f32)
  (x3 : FVec Ideal S1024x256 .f32) (x4 : FVec Ideal S1x256 .f32) (x5 : FVec Ideal S512x1 .f32)

/-- The first affine layer on the block's rows. -/
def pre1 : FVec Ideal S512x1024 .f32 :=
  addf (matmul dot_S512x512_S512x1024_S512x1024_1_0_0_1_n_n none
      (truncf .bf16 (shapeCast S512x512 x0 shapeCasts_S512x512_S512x512) bitsLt_bf16_f32) (truncf .bf16 x1 bitsLt_bf16_f32)
      (constant (F := Ideal) S512x1024 .f32 0x00000000#32))
    (broadcastTo S512x1024 (shapeCast S1x1024 x2 shapeCasts_S1x1024_S1x1024) broadcasts_S1x1024_S512x1024)

theorem pre1_apply (r : Fin 512) (n : Fin 1024) :
    pre1 x0 x1 x2 (ix2 r n) = (∑ k : Fin 512, x0 (ix2 r k) * x1 (ix2 k n)) + x2 (ix2 (0 : Fin 1) n) := by
  unfold pre1
  rw [addf_apply]
  refine congrArg₂ (· + ·) ?_ ?_
  · simp only [matmul]
    rw [matmul_zero_apply _ rfl rfl rfl rfl rfl rfl]
    refine Finset.sum_congr rfl fun k _ => ?_
    rw [truncf_apply, truncf_apply, shapeCast_self]
  · rw [broadcastTo_1b_ab_apply, shapeCast_self]

/-- The activation, entry by entry. -/
def act (h : FVec Ideal S512x1024 .f32) : FVec Ideal S512x1024 .f32 :=
  mulf h (mulf (broadcast S512x1024 (Scalar.ofBits .f32 0x3F000000#32))
    (addf (broadcast S512x1024 (Scalar.ofBits .f32 0x3F800000#32))
      (tanh (mulf (broadcast S512x1024 (Scalar.ofBits .f32 0x3F4C422A#32))
        (addf h (mulf (broadcast S512x1024 (Scalar.ofBits .f32 0x3D372713#32)) (mulf h (mulf h h))))))))

theorem act_apply (h : FVec Ideal S512x1024 .f32) (i : S512x1024.Idx) : act h i = Head.gelu (h i) := rfl

/-- The second affine layer on the block's rows. -/
def pre2 : FVec Ideal S512x256 .f32 :=
  addf (matmul dot_S512x1024_S1024x256_S512x256_1_0_0_1_n_n none
      (truncf .bf16 (act (pre1 x0 x1 x2)) bitsLt_bf16_f32) (truncf .bf16 x3 bitsLt_bf16_f32)
      (constant (F := Ideal) S512x256 .f32 0x00000000#32))
    (broadcastTo S512x256 (shapeCast S1x256 x4 shapeCasts_S1x256_S1x256) broadcasts_S1x256_S512x256)

/-- The weights and biases as functions of plain coordinates. -/
abbrev W1 : Fin 512 → Fin 1024 → EReal := fun k n => x1 (ix2 k n)
abbrev B1 : Fin 1024 → EReal := fun n => x2 (ix2 (0 : Fin 1) n)
abbrev W2 : Fin 1024 → Fin 256 → EReal := fun n j => x3 (ix2 n j)
abbrev B2 : Fin 256 → EReal := fun j => x4 (ix2 (0 : Fin 1) j)

theorem pre2_apply (r : Fin 512) (j : Fin 256) :
    pre2 x0 x1 x2 x3 x4 (ix2 r j) = Head.proj (W1 x1) (B1 x2) (W2 x3) (B2 x4) (fun k => x0 (ix2 r k)) j := by
  unfold pre2 Head.proj Head.hidden
  rw [addf_apply]
  refine congrArg₂ (· + ·) ?_ ?_
  · simp only [matmul]
    rw [matmul_zero_apply _ rfl rfl rfl rfl rfl rfl]
    refine Finset.sum_congr rfl fun n _ => ?_
    rw [truncf_apply, truncf_apply, act_apply, pre1_apply]
  · rw [broadcastTo_1b_ab_apply, shapeCast_self]

/-- A row's sum, as the lane reduction computes it. -/
theorem rowSum (y : FVec Ideal S512x256 .f32) (hφ : FKind.Formats .f32) (hacc : (0x00000000#32 : BitVec 32) = 0x00000000#32)
    (r : Fin 512) :
    multiReduction .add [1] S512 y 0x00000000#32 reduces_S512x256_S512 hφ hacc (ix1 r) = ∑ j : Fin 256, y (ix2 r j) := by
  refine (Ideal.multiReduction_add_single y _ reduces_S512x256_S512 hφ hacc (ix1 r)).trans ?_
  show ∑ j : Fin 256, y (reduces_S512x256_S512.lift (ix1 r) j) = ∑ j : Fin 256, y (ix2 r j)
  refine Finset.sum_congr rfl fun j _ => congrArg y (funext fun a => Fin.ext ?_)
  match a with
  | ⟨0, _⟩ => rfl
  | ⟨1, _⟩ => rfl

/-- The column of row lengths. -/
def lenCol (y : FVec Ideal S512x256 .f32) : FVec Ideal S512x1 .f32 :=
  maximumf (sqrt (shapeCast S512x1 (multiReduction .add [1] S512 (mulf y y) 0x00000000#32 reduces_S512x256_S512 (.inl rfl) rfl) shapeCasts_S512_S512x1))
    (broadcast S512x1 (Scalar.ofBits .f32 0x2B8CBCCC#32))

theorem lenCol_apply (y : FVec Ideal S512x256 .f32) (r : Fin 512) :
    lenCol y (ix2 r (0 : Fin 1)) = max (Ideal.sqrt (∑ j : Fin 256, y (ix2 r j) * y (ix2 r j))) (Ideal.ofBits .f32 0x2B8CBCCC#32) := by
  unfold lenCol
  rw [maximumf_apply]
  refine congrArg₂ max ?_ rfl
  show Ideal.sqrt (shapeCast S512x1 (multiReduction .add [1] S512 (mulf y y) 0x00000000#32 reduces_S512x256_S512 (.inl rfl) rfl) shapeCasts_S512_S512x1 (ix2 r (0 : Fin 1))) = _
  rw [LibColumn.shapeCast_a_a1_apply]
  exact congrArg Ideal.sqrt (rowSum (mulf y y) _ _ r)

theorem pay2_eq : k0_pay2 (F := Ideal) x0 x1 x2 x3 x4
    = divf (pre2 x0 x1 x2 x3 x4) (broadcastTo S512x256 (lenCol (pre2 x0 x1 x2 x3 x4)) broadcasts_S512x1_S512x256) := rfl

theorem pay1_eq (v : FVec Ideal S512x256 .f32) : k0_pay1 (F := Ideal) v x5
    = mulf v (broadcastTo S512x256 (shapeCast S512x1 x5 shapeCasts_S512x1_S512x1) broadcasts_S512x1_S512x256) := rfl

/-- Entry `(r, j)` of the stored block: the unit-length projection of row `r`, times the row's factor. -/
theorem stored_apply (r : Fin 512) (j : Fin 256) :
    k0_pay1 (F := Ideal) (k0_pay2 (F := Ideal) x0 x1 x2 x3 x4) x5 (ix2 r j)
      = Head.unitRow (W1 x1) (B1 x2) (W2 x3) (B2 x4) (fun k => x0 (ix2 r k)) j * x5 (ix2 r (0 : Fin 1)) := by
  rw [pay1_eq, pay2_eq, mulf_apply, divf_apply, LibColumn.broadcastTo_a1_ab_apply, LibColumn.broadcastTo_a1_ab_apply, shapeCast_self,
    lenCol_apply, pre2_apply]
  unfold Head.unitRow Head.len
  simp only [pre2_apply]

end Cert.KernelIdeal.Row

end
-- ==== Proof.KernelArray.lean ====
/-
  From the body's blocks to the kernel's result.

  Grid point `t` reads rows `512 t … 512 t + 511` of the gathered rows and of the column of row factors, and the
  weights and biases whole, and writes rows `512 t … 512 t + 511` of the 51200 × 256 result; the hundred points tile
  it. So entry `(R, j)` of the array the region leaves is output `j` of row `R`'s projection head, scaled to unit
  length, times row `R`'s factor, and the program's result is that array laid out as 1024 × 50 × 256.
-/
import proofs.«425311_j56495999811635_1_alg».proof.Proof.Gen.KernelIdeal.Frame
import proofs.«425311_j56495999811635_1_alg».proof.Proof.KernelRow
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Whole

open Cert.KernelIdeal Cert.KernelIdeal.Gen Idealize.ShloMosaic.ValueIdx Idealize.ShloMosaic.StableHlo

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds, and each window's block at a point, at their literal types -/

abbrev aRows (c : Dev nD) : FVec Ideal S51200x512 .f32 := V m c main_v5
abbrev aW1 (c : Dev nD) : FVec Ideal S512x1024 .f32 := V m c main_arg1
abbrev aB1 (c : Dev nD) : FVec Ideal S1x1024 .f32 := V m c main_v9
abbrev aW2 (c : Dev nD) : FVec Ideal S1024x256 .f32 := V m c main_arg3
abbrev aB2 (c : Dev nD) : FVec Ideal S1x256 .f32 := V m c main_v10
abbrev aKeep (c : Dev nD) : FVec Ideal S51200x1 .f32 := V m c main_v8

abbrev xb0 (c : Dev nD) (t : Fin cfg0.N) : FVec Ideal S512x512 .f32 := iblk m c 0 t
abbrev xb1 (c : Dev nD) (t : Fin cfg0.N) : FVec Ideal S512x1024 .f32 := iblk m c 1 t
abbrev xb2 (c : Dev nD) (t : Fin cfg0.N) : FVec Ideal S1x1024 .f32 := iblk m c 2 t
abbrev xb3 (c : Dev nD) (t : Fin cfg0.N) : FVec Ideal S1024x256 .f32 := iblk m c 3 t
abbrev xb4 (c : Dev nD) (t : Fin cfg0.N) : FVec Ideal S1x256 .f32 := iblk m c 4 t
abbrev xb5 (c : Dev nD) (t : Fin cfg0.N) : FVec Ideal S512x1 .f32 := iblk m c 5 t

/-- The printed index maps over the grid: the row windows move with the point, the others stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `r` of point `t`'s block is row `512 t + r` of the array. -/
abbrev rowAt (t : Fin cfg0.N) (r : Fin 512) : Fin 51200 :=
  ⟨t.val * 512 + r.val, by have h : t.val < 100 := lt_of_lt_of_eq t.isLt N_0; have := r.isLt; omega⟩

theorem xb0_apply (c : Dev nD) (t : Fin cfg0.N) (r : Fin 512) (k : Fin 512) :
    xb0 m c t (ix2 r k) = aRows m c (ix2 (rowAt t r) k) := by
  obtain ⟨e0, e1, -⟩ := idx_facts t
  show iblk m c 0 t (ix2 r k) = _
  unfold iblk
  rw [View.read_apply]
  show V m c main_v5 _ = V m c main_v5 _
  congr 1
  funext a
  apply Fin.ext
  match a with
  | ⟨0, _⟩ => show win0_0.index t (0 : Fin 2) * 512 + 1 * r.val = t.val * 512 + r.val; rw [e0]; omega
  | ⟨1, _⟩ => show win0_0.index t (1 : Fin 2) * 512 + 1 * k.val = k.val; rw [e1]; omega

theorem xb5_apply (c : Dev nD) (t : Fin cfg0.N) (r : Fin 512) (u : Fin 1) :
    xb5 m c t (ix2 r u) = aKeep m c (ix2 (rowAt t r) u) := by
  obtain ⟨-, -, -, -, -, -, -, -, -, -, e0, e1, -⟩ := idx_facts t
  show iblk m c 5 t (ix2 r u) = _
  unfold iblk
  rw [View.read_apply]
  show V m c main_v8 _ = V m c main_v8 _
  congr 1
  funext a
  apply Fin.ext
  match a with
  | ⟨0, _⟩ => show win0_5.index t (0 : Fin 2) * 512 + 1 * r.val = t.val * 512 + r.val; rw [e0]; omega
  | ⟨1, _⟩ => show win0_5.index t (1 : Fin 2) * 1 + 1 * u.val = u.val; rw [e1]; omega

theorem xb1_eq (c : Dev nD) (t : Fin cfg0.N) : xb1 m c t = aW1 m c := by
  obtain ⟨-, -, e0, e1, -⟩ := idx_facts t
  funext y
  show iblk m c 1 t y = _
  unfold iblk
  rw [View.read_apply]
  show V m c main_arg1 _ = V m c main_arg1 _
  congr 1
  funext a
  apply Fin.ext
  match a with
  | ⟨0, _⟩ => show win0_1.index t (0 : Fin 2) * 512 + 1 * (y 0).val = (y 0).val; rw [e0]; omega
  | ⟨1, _⟩ => show win0_1.index t (1 : Fin 2) * 1024 + 1 * (y 1).val = (y 1).val; rw [e1]; omega

theorem xb2_eq (c : Dev nD) (t : Fin cfg0.N) : xb2 m c t = aB1 m c := by
  obtain ⟨-, -, -, -, e0, e1, -⟩ := idx_facts t
  funext y
  show iblk m c 2 t y = _
  unfold iblk
  rw [View.read_apply]
  show V m c main_v9 _ = V m c main_v9 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 1024 + 1 * (y 1).val = (y 1).val; rw [e1]; omega

theorem xb3_eq (c : Dev nD) (t : Fin cfg0.N) : xb3 m c t = aW2 m c := by
  obtain ⟨-, -, -, -, -, -, e0, e1, -⟩ := idx_facts t
  funext y
  show iblk m c 3 t y = _
  unfold iblk
  rw [View.read_apply]
  show V m c main_arg3 _ = V m c main_arg3 _
  congr 1
  funext a
  apply Fin.ext
  match a with
  | ⟨0, _⟩ => show win0_3.index t (0 : Fin 2) * 1024 + 1 * (y 0).val = (y 0).val; rw [e0]; omega
  | ⟨1, _⟩ => show win0_3.index t (1 : Fin 2) * 256 + 1 * (y 1).val = (y 1).val; rw [e1]; omega

theorem xb4_eq (c : Dev nD) (t : Fin cfg0.N) : xb4 m c t = aB2 m c := by
  obtain ⟨-, -, -, -, -, -, -, -, e0, e1, -⟩ := idx_facts t
  funext y
  show iblk m c 4 t y = _
  unfold iblk
  rw [View.read_apply]
  show V m c main_v10 _ = V m c main_v10 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-! ## The array the region leaves -/

/-- Entry `(R, j)`: row `R`'s unit-length projection, times its factor. -/
def regionAt (c : Dev nD) (R : Fin 51200) (j : Fin 256) : EReal :=
  Head.unitRow (Row.W1 (aW1 m c)) (Row.B1 (aB1 m c)) (Row.W2 (aW2 m c)) (Row.B2 (aB2 m c)) (fun k => aRows m c (ix2 R k)) j
    * aKeep m c (ix2 R (0 : Fin 1))

def region (c : Dev nD) : FVec Ideal S51200x256 .f32 :=
  fun i => regionAt m c ⟨(i 0).val, (i 0).isLt⟩ ⟨(i 1).val, (i 1).isLt⟩

theorem region_apply (c : Dev nD) (R : Fin 51200) (j : Fin 256) : region m c (ix2 R j) = regionAt m c R j := rfl

/-- What point `t` writes back is block `t` of `region`. -/
theorem flushed_eq (c : Dev nD) (t : Fin cfg0.N) :
    (dats m 0 c).flushed 6 t = ((cfg0.win 6).blk t).view.read (Elt Ideal) (region m c) := by
  obtain ⟨-, -, -, -, -, -, -, -, -, -, -, -, e0, e1⟩ := idx_facts t
  show (cfg0.win 6).cut (grid0.coords t) ((dats m 0 c).after 6 t) = _
  rw [after0_6]
  unfold out0_6
  rw [View.canon_unit_zero hz]
  simp only [View.ld_unit_zero (S := S512x512) hz, View.ld_unit_zero (S := S512x1024) hz, View.ld_unit_zero (S := S1x1024) hz,
    View.ld_unit_zero (S := S1024x256) hz, View.ld_unit_zero (S := S1x256) hz, View.ld_unit_zero (S := S512x1) hz]
  funext y
  obtain ⟨r, j, rfl⟩ : ∃ (r : Fin 512) (j : Fin 256), y = ix2 r j := ⟨y 0, y 1, eq_ix2 y⟩
  rw [View.read_apply]
  have hemb : ((cfg0.win 6).blk t).view.emb (ix2 r j) = ix2 (rowAt t r) j := by
    funext a
    apply Fin.ext
    match a with
    | ⟨0, _⟩ => show win0_6.index t (0 : Fin 2) * 512 + 1 * r.val = t.val * 512 + r.val; rw [e0]; omega
    | ⟨1, _⟩ => show win0_6.index t (1 : Fin 2) * 256 + 1 * j.val = j.val; rw [e1]; omega
  rw [hemb, region_apply]
  refine (Row.stored_apply (xb0 m c t) (xb1 m c t) (xb2 m c t) (xb3 m c t) (xb4 m c t) (xb5 m c t) r j).trans ?_
  unfold regionAt
  rw [xb1_eq, xb2_eq, xb3_eq, xb4_eq, xb5_apply]
  refine congrArg (fun x => Head.unitRow _ _ _ _ x j * _) (funext fun k => ?_)
  exact xb0_apply m c t r k

/-- The hundred blocks tile the array. -/
theorem cover (i : S51200x256.Idx) :
    ∃ t : Fin cfg0.N, (cfg0.win 6).flush t = true ∧ i ∈ ((cfg0.win 6).blk t).view.set := by
  have hi0 : (i 0).val < 51200 := (i 0).isLt
  have hi1 : (i 1).val < 256 := (i 1).isLt
  let t : Fin cfg0.N := ⟨(i 0).val / 512, by rw [show cfg0.N = 100 from N_0]; omega⟩
  obtain ⟨-, -, -, -, -, -, -, -, -, -, -, -, e0, e1⟩ := idx_facts t
  refine ⟨t, flush0_6 t, ?_⟩
  show i ∈ ((View.whole main_v11).slice (win0_6.rect t)).set
  rw [View.set_slice_whole, Rect.mem_set_unit]
  intro a
  match a with
  | ⟨0, _⟩ =>
    show win0_6.index t (0 : Fin 2) * 512 ≤ (i 0).val ∧ (i 0).val < win0_6.index t (0 : Fin 2) * 512 + 512
    rw [e0]
    show (i 0).val / 512 * 512 ≤ (i 0).val ∧ (i 0).val < (i 0).val / 512 * 512 + 512
    omega
  | ⟨1, _⟩ =>
    show win0_6.index t (1 : Fin 2) * 256 ≤ (i 1).val ∧ (i 1).val < win0_6.index t (1 : Fin 2) * 256 + 256
    rw [e1]
    omega

/-- So the array ends holding `region`. -/
theorem final (c : Dev nD) : (dats m 0 c).arrAt 6 cfg0.N = region m c :=
  (dats m 0 c).arrAt_eq_of_cover 6 (region m c) (fun t _ => flushed_eq m c t) cover

/-! ## The line after the region, and the run -/

/-- The program's result: the region's array laid out as 1024 × 50 × 256. -/
abbrev result (c : Dev nD) : Buf (Elt Ideal) ((c : Thread nD τ).loc main_v12) :=
  shapeCast _ (region m c) shapeCasts_S51200x256_S1024x50x256

theorem tail_eq (c : Dev nD) :
    Pipeline.afterTail₀ cfgs (dats m) 0 (V0 m) [hostOps1] c main_v12 = result m c := by
  unfold Pipeline.afterTail₀
  show StableHlo.after hostOps1 _ (Proc.devRef .tc main_v12) = _
  after_results
  exact congrArg (fun x => shapeCast _ x shapeCasts_S51200x256_S1024x50x256)
    ((Pipeline.withArrays_arr spec0 launch0.win.arr_inj c _ _ 6).trans (final m c))

/-- Every weakly fair execution ends with the result array at `result` and the arguments unchanged. -/
theorem run : θ_run defs (onTc (τ := τ) (main (F := Ideal))) ⟨m, fun _ => 0, ρ⟩ (fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v12 (Pipeline.mem_restRefs_of main_v12 (by decide) (by decide))).trans (tail_eq m c),
      (((h c).2 main_arg0 (Pipeline.mem_restRefs_of main_arg0 (by decide) (by decide))).trans (W_main_arg0 m (dats m) c)),
      ((h c).1 1).trans ((((dats m) 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans ((((dats m) 0 c).arrAt_in 3 rfl _).trans ((A_eq m c 3).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Whole

end
-- ==== Proof.Words.lean ====
/-
  A tag id below the table's height, clamped below at zero, is a row position of the table.

  For a 32-bit word `a` read as a signed integer with `a < 100000`, the word `max a 0` is not negative and is at
  most `99999`; so the gather's own wrap of negative words leaves it alone and it passes the range test
  `0 ≤ · ≤ 99999`.
-/
import Idealize.ShloMosaic.PureOps.Float
import Idealize.ShloMosaic.Lib.Affine

namespace Cert.Words

open Idealize.ShloMosaic

theorem slt_iff (a b : BitVec 32) : IntOp.cmpi .slt a b = 1#1 ↔ a.toInt < b.toInt := by
  unfold IntOp.cmpi
  cases h : a.slt b
  · have : ¬ a.toInt < b.toInt := by simpa [BitVec.slt] using h
    simp [this]
  · have : a.toInt < b.toInt := by simpa [BitVec.slt] using h
    simp [this]

theorem sle_iff (a b : BitVec 32) : IntOp.cmpi .sle a b = 1#1 ↔ a.toInt ≤ b.toInt := by
  unfold IntOp.cmpi
  cases h : a.sle b
  · have : ¬ a.toInt ≤ b.toInt := by simpa [BitVec.sle] using h
    simp [this]
  · have : a.toInt ≤ b.toInt := by simpa [BitVec.sle] using h
    simp [this]

theorem sge_iff (a b : BitVec 32) : IntOp.cmpi .sge a b = 1#1 ↔ b.toInt ≤ a.toInt := by
  unfold IntOp.cmpi
  cases h : b.sle a
  · have : ¬ b.toInt ≤ a.toInt := by simpa [BitVec.sle] using h
    simp [this]
  · have : b.toInt ≤ a.toInt := by simpa [BitVec.sle] using h
    simp [this]

/-- The clamped word as a signed integer. -/
theorem toInt_maxsi_zero (a : BitVec 32) : (IntOp.maxsi a 0#32).toInt = max a.toInt 0 := by
  unfold IntOp.maxsi
  have h0 : (0#32 : BitVec 32).toInt = 0 := by decide
  by_cases hp : (0#32 : BitVec 32).slt a
  · rw [if_pos hp]
    have : (0 : Int) < a.toInt := by simpa [BitVec.slt, h0] using hp
    omega
  · rw [if_neg hp]
    have : ¬ (0 : Int) < a.toInt := by simpa [BitVec.slt, h0] using hp
    omega

/-- The clamped word is not negative. -/
theorem not_neg (a : BitVec 32) : ¬ IntOp.cmpi .slt (IntOp.maxsi a 0#32) 0#32 = 1#1 := by
  rw [slt_iff, toInt_maxsi_zero]
  have h0 : (0#32 : BitVec 32).toInt = 0 := by decide
  omega

/-- The clamped word is at least zero … -/
theorem ge_zero (a : BitVec 32) : IntOp.cmpi .sge (IntOp.maxsi a 0#32) 0#32 = 1#1 := by
  rw [sge_iff, toInt_maxsi_zero]
  have h0 : (0#32 : BitVec 32).toInt = 0 := by decide
  omega

/-- … and at most the table's last row position when the id is below the table's height. -/
theorem le_last (a : BitVec 32) (h : IntOp.cmpi .slt a 100000#32 = 1#1) : IntOp.cmpi .sle (IntOp.maxsi a 0#32) 99999#32 = 1#1 := by
  rw [slt_iff] at h
  rw [sle_iff, toInt_maxsi_zero]
  have h1 : (100000#32 : BitVec 32).toInt = 100000 := by decide
  have h2 : (99999#32 : BitVec 32).toInt = 99999 := by decide
  omega

/-- The index word the gather reads for the tag id `a`: the clamped id, moved up by the table's height were it negative. -/
def wrap (a : BitVec 32) : BitVec 32 :=
  Scalar.select (IntOp.cmpi .slt (IntOp.maxsi a 0#32) 0#32) (IntOp.addi (IntOp.maxsi a 0#32) 100000#32) (IntOp.maxsi a 0#32)

/-- It is the clamped id: that is never negative. -/
theorem wrap_eq (a : BitVec 32) : wrap a = IntOp.maxsi a 0#32 := by
  unfold wrap Scalar.select
  exact if_neg (not_neg a)

/-- For an id below the table's height it passes the range test `0 ≤ · ≤ 99999`. -/
theorem wrap_ok (a : BitVec 32) (h : IntOp.cmpi .slt a 100000#32 = 1#1) :
    IntOp.andi (IntOp.cmpi .sge (wrap a) 0#32) (IntOp.cmpi .sle (wrap a) 99999#32) = 1#1 := by
  rw [wrap_eq]
  exact IntOp.andi_eq_one.2 ⟨ge_zero a, le_last a h⟩

end Cert.Words
-- ==== Proof.LibHostRead.lean ====
/-
  Host operations read at an index.

  A `stablehlo.reduce` by `and` from 1 is 1 where every operand entry reducing into the result is 1; over a unit last
  axis that is one entry. A broadcast of an `[n, p]` array along a new last axis reads the operand at `(r, s)`. A reshape
  of `[n, a, b]` to `[n, a * b]` reads, at `(r, q)`, the operand at `(r, q / b, q % b)`.
-/
import Idealize.ShloMosaic.PureOps.Reduce
import Idealize.ShloMosaic.Lib.ReduceAll
import Idealize.ShloMosaic.Lib.ValueIdx
import Idealize.ShloMosaic.Lib.Pipeline.Value

namespace Cert.LibHostRead

open Idealize.ShloMosaic Idealize.ShloMosaic.ValueIdx

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    have ha : f a = 1#1 := h a (List.mem_cons_self ..)
    have e : IntOp.andi 1#1 (f a) = 1#1 := by rw [ha]; decide
    rw [List.foldl_cons, e]
    exact foldl_andi_one f l (fun n hn => h n (List.mem_cons_of_mem _ hn))

/-- A `stablehlo.reduce` by `and` from 1 is 1 at `j` when every operand entry that reduces into `j` is 1. -/
theorem reduce_andi_of_forall {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i : s.Idx, h.drop i = j → x i = 1#1) : Host.reduce IntOp.andi x init h hu j = 1#1 := by
  rw [Host.reduce_eq_foldl, hinit]
  refine foldl_andi_one x _ (fun i hi => ?_)
  rw [List.mem_filter] at hi
  exact hx i (by simpa using hi.2)

/-- Over a unit last axis the entries reducing into `(r, s)` are the one at `(r, s, 0)`. -/
theorem drop_unit_last {n p : Nat} (h : (⟨3, ![n, p, 1]⟩ : Shape).ReducesTo [2] ⟨2, ![n, p]⟩)
    (i : (⟨3, ![n, p, 1]⟩ : Shape).Idx) (r : Fin n) (s : Fin p) (hi : h.drop i = ix2 r s) : i = ix3 r s (0 : Fin 1) := by
  have h0 : (h.drop i 0).val = r.val := congrArg (fun k => (k 0).val) hi
  have h1 : (h.drop i 1).val = s.val := congrArg (fun k => (k 1).val) hi
  refine (eq_ix3 i).trans ?_
  have e0 : i 0 = r := Fin.ext h0
  have e1 : i 1 = s := Fin.ext h1
  have h2 : (i 2).val < 1 := (i 2).isLt
  have e2 : i 2 = (0 : Fin 1) := Fin.ext (by show (i 2).val = 0; omega)
  rw [e0, e1, e2]
  exact rfl

/-- The reduce by `and` from 1 over a unit last axis is 1 at `(r, s)` when the entry at `(r, s, 0)` is. -/
theorem reduce_andi_unit_last {n p : Nat} {u : Shape} (x : (⟨3, ![n, p, 1]⟩ : Shape).Idx → BitVec 1) (init : u.Idx → BitVec 1)
    (h : (⟨3, ![n, p, 1]⟩ : Shape).ReducesTo [2] ⟨2, ![n, p]⟩) (hu : 0 < u.numel) (r : Fin n) (s : Fin p)
    (hinit : init (Shape.Idx.first hu) = 1#1) (hx : x (ix3 r s (0 : Fin 1)) = 1#1) :
    Host.reduce IntOp.andi x init h hu (ix2 r s) = 1#1 :=
  reduce_andi_of_forall x init h hu _ hinit (fun i hi => by rw [drop_unit_last h i r s hi]; exact hx)

/-- An `[n, p]` array broadcast along a new last axis reads, at `(r, s, j)`, the operand at `(r, s)`. -/
theorem bcast_pairs_apply {α : Type} {n p c : Nat} (h : (⟨2, ![n, p]⟩ : Shape).BroadcastsInDim ⟨3, ![n, p, c]⟩ ![0, 1])
    (x : (⟨2, ![n, p]⟩ : Shape).Idx → α) (r : Fin n) (s : Fin p) (j : Fin c) :
    broadcastInDim ⟨3, ![n, p, c]⟩ ![0, 1] h x (ix3 r s j) = x (ix2 r s) := by
  refine broadcastInDim_apply _ h x _ _ (fun a => ?_)
  match a with
  | ⟨0, _⟩ =>
    show r.val = if n = 1 then 0 else r.val
    split
    · have := r.isLt; omega
    · rfl
  | ⟨1, _⟩ =>
    show s.val = if p = 1 then 0 else s.val
    split
    · have := s.isLt; omega
    · rfl

/-- An `[n, a, b]` array reshaped to `[n, a * b]` reads, at `(r, q)`, the operand at `(r, q / b, q % b)`. -/
theorem reshape_pairs_apply {α : Type} {n a b c : Nat} (hc : c = a * b) (hb : 0 < b)
    (x : (⟨3, ![n, a, b]⟩ : Shape).Idx → α) (h : (⟨3, ![n, a, b]⟩ : Shape).ShapeCasts ⟨2, ![n, c]⟩) (r : Fin n) (q : Fin c) :
    shapeCast ⟨2, ![n, c]⟩ x h (ix2 r q)
      = x (ix3 r ⟨q.val / b, by subst hc; exact Nat.div_lt_of_lt_mul (lt_of_lt_of_eq q.isLt (Nat.mul_comm a b))⟩ ⟨q.val % b, Nat.mod_lt _ hb⟩) := by
  subst hc
  refine shapeCast_apply x h _ _ ?_
  rw [Shape.rowMajor_val_three, Shape.rowMajor_val_two]
  show (r.val * a + q.val / b) * b + q.val % b = r.val * (a * b) + q.val
  rw [Nat.add_mul, Nat.mul_assoc, Nat.add_assoc, Nat.div_add_mod']

end Cert.LibHostRead
-- ==== Proof.KernelHost.lean ====
/-
  What the region finds in the arrays the host lines before it compute.

  Before the one region the program clamps the tag ids below at zero, one id per row of the 51200 = 1024 · 50 rows,
  gathers the table's row at each id (a row whose id is not a row position of the table is filled with the junk
  value instead), turns "the id is not negative" into the factor 1 or 0 of each row, and gives the two bias vectors
  a leading unit axis.
-/
import proofs.«425311_j56495999811635_1_alg».proof.Proof.Gen.KernelIdeal.Frame
import proofs.«425311_j56495999811635_1_alg».proof.Proof.Head
import proofs.«425311_j56495999811635_1_alg».proof.Proof.Words
import proofs.«425311_j56495999811635_1_alg».proof.Proof.LibHostRead
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The tag ids clamped below at zero, one per row. -/
abbrev rowIds (c : Dev nD) : Buf (Elt F) ((c : Thread nD τ).loc main_v4) :=
  shapeCast _ (maxsi (m ((c : Thread nD τ).loc main_arg5)) (broadcastInDim S1024x50 ![] bcast_S_S1024x50 (constantI S_ 32 0#32))) shapeCasts_S1024x50_S51200

/-- The column of index words the gather reads: a negative word would be moved up by the table's height. -/
abbrev idxCol (c : Dev nD) : Buf (Elt F) ((c : Thread nD τ).loc main_call0_v5) :=
  broadcastInDim S51200x1 ![0] bcast_S51200_S51200x1_0
    (select (cmpi .slt (rowIds m c) (broadcastInDim S51200 ![] bcast_S_S51200 (constantI S_ 32 0#32)))
      (addi (rowIds m c) (broadcastInDim S51200 ![] bcast_S_S51200 (constantI S_ 32 100000#32)))
      (rowIds m c))

/-- Per row: is the index word a row position of the table. -/
abbrev inRange (c : Dev nD) : Buf (Elt F) ((c : Thread nD τ).loc main_call0_v12) :=
  Host.reduce IntOp.andi
    (andi (cmpi .sge (idxCol m c) (broadcastInDim S51200x1 ![] bcast_S_S51200x1 (constantI S_ 32 0#32)))
      (cmpi .sle (idxCol m c) (broadcastInDim S51200x1 ![0, 1] bcast_S1x1_S51200x1_0_1 (broadcastInDim S1x1 ![1] bcast_S1_S1x1_1 (constantI S1 32 99999#32)))))
    (constantI S_ 1 1#1) reducesTo_S51200x1_S51200_d1 h_S_

set_option maxHeartbeats 2000000 in
/-- The gathered rows as the region finds them. -/
theorem V_rows (c : Dev nD) :
    V m c main_v5 = select (broadcastInDim S51200x512 ![0] bcast_S51200_S51200x512_0 (inRange m c))
      (Host.gather gather_S100000x512_S51200x1_S51200x512_1_0_n_n_0_1_1512 (m ((c : Thread nD τ).loc main_arg0)) (idxCol m c))
      (broadcastInDim S51200x512 ![] bcast_S_S51200x512 (constant S_ .f32 0x7FC00000#32)) := by
  dsimp only [V, V0]
  simp only [hostOps0, hostOps0_1, hostOps0_2, List.flatten_cons, List.flatten_nil, List.append_nil, List.cons_append, List.nil_append]
  after_results_simp
  simp only [TRef.toBuf, TRef.ofBuf, cast_eq]

/-- The per-row factor as the region finds it: 1 where the tag id is not negative, else 0. -/
theorem V_keep (c : Dev nD) :
    V m c main_v8 = uitofp .f32 (shapeCast _ (noti (cmpi .slt (m ((c : Thread nD τ).loc main_arg5)) (broadcastInDim S1024x50 ![] bcast_S_S1024x50 (constantI S_ 32 0#32)))) shapeCasts_S1024x50_S51200x1) := by
  dsimp only [V, V0]
  simp only [hostOps0, hostOps0_1, hostOps0_2, List.flatten_cons, List.flatten_nil, List.append_nil, List.cons_append, List.nil_append]
  after_results_simp <;> rfl

/-- The first bias with a leading unit axis. -/
theorem V_bias1 (c : Dev nD) : V m c main_v9 = shapeCast _ (m ((c : Thread nD τ).loc main_arg2)) shapeCasts_S1024_S1x1024 := by
  dsimp only [V, V0]
  simp only [hostOps0, hostOps0_1, hostOps0_2, List.flatten_cons, List.flatten_nil, List.append_nil, List.cons_append, List.nil_append]
  after_results_simp <;> rfl

/-- The second bias with a leading unit axis. -/
theorem V_bias2 (c : Dev nD) : V m c main_v10 = shapeCast _ (m ((c : Thread nD τ).loc main_arg4)) shapeCasts_S256_S1x256 := by
  dsimp only [V, V0]
  simp only [hostOps0, hostOps0_1, hostOps0_2, List.flatten_cons, List.flatten_nil, List.append_nil, List.cons_append, List.nil_append]
  after_results_simp <;> rfl

/-! ## Entry by entry, for tag ids below the table's height -/

section Entries

open Idealize.ShloMosaic.ValueIdx Cert.Head

variable (mi : (ℓ : Loc nD τ sig) → Buf (Elt Ideal) ℓ)

/-- Every row's index word is a row position of the table. -/
theorem inRange_one (c : Dev nD) (hlt : ∀ i, IntOp.cmpi .slt (mi ((c : Thread nD τ).loc main_arg5) i) 100000#32 = 1#1)
    (k : S51200.Idx) : inRange mi c k = 1#1 := by
  refine LibHostRead.reduce_andi_of_forall _ _ _ _ k rfl (fun i _ => ?_)
  show IntOp.andi (IntOp.cmpi .sge (idxCol mi c i) 0#32) (IntOp.cmpi .sle (idxCol mi c i) 99999#32) = 1#1
  obtain ⟨a, ha, hlt'⟩ : ∃ a, idxCol mi c i = Words.wrap a ∧ IntOp.cmpi .slt a 100000#32 = 1#1 := ⟨_, rfl, hlt _⟩
  rw [ha]
  exact Words.wrap_ok a hlt'

/-- So the region finds the table's gathered rows, no row filled. -/
theorem rows_apply (c : Dev nD) (hlt : ∀ i, IntOp.cmpi .slt (mi ((c : Thread nD τ).loc main_arg5) i) 100000#32 = 1#1)
    (R : Fin 51200) (k : Fin 512) :
    V mi c main_v5 (ix2 R k)
      = Host.gather gather_S100000x512_S51200x1_S51200x512_1_0_n_n_0_1_1512 (mi ((c : Thread nD τ).loc main_arg0)) (idxCol mi c) (ix2 R k) := by
  rw [V_rows, select_apply]
  have h1 : broadcastInDim S51200x512 ![0] bcast_S51200_S51200x512_0 (inRange mi c) (ix2 R k) = 1#1 := by
    unfold broadcastInDim
    exact inRange_one mi c hlt _
  rw [h1, select_one]

/-- Row `50 b + p`'s factor: the tag's "not negative" bit as a number. -/
theorem keep_apply (c : Dev nD) (b : Fin 1024) (p : Fin 50) (u : Fin 1) :
    V mi c main_v8 (ix2 (rowOf b p) u)
      = FloatOps.uitofp (F := Ideal) .f32 (~~~ IntOp.cmpi .slt (mi ((c : Thread nD τ).loc main_arg5) (ix2 b p)) 0#32) := by
  rw [V_keep]
  show FloatOps.uitofp (F := Ideal) .f32 (shapeCast S51200x1 (noti (cmpi .slt (mi ((c : Thread nD τ).loc main_arg5)) (broadcastInDim S1024x50 ![] bcast_S_S1024x50 (constantI S_ 32 0#32)))) shapeCasts_S1024x50_S51200x1 (ix2 (rowOf b p) u)) = _
  rw [shapeCast_apply _ _ (ix2 (rowOf b p) u) (ix2 b p) (by
    have hu : u.val = 0 := by omega
    rw [Shape.rowMajor_val_two, Shape.rowMajor_val_two]
    show b.val * 50 + p.val = (b.val * 50 + p.val) * 1 + u.val
    omega)]
  rfl

theorem bias1_apply (c : Dev nD) (u : Fin 1) (n : Fin 1024) :
    V mi c main_v9 (ix2 u n) = mi ((c : Thread nD τ).loc main_arg2) (ix1 n) := by
  rw [V_bias1]
  exact shapeCast_a_1a_apply _ _ u n

theorem bias2_apply (c : Dev nD) (u : Fin 1) (j : Fin 256) :
    V mi c main_v10 (ix2 u j) = mi ((c : Thread nD τ).loc main_arg4) (ix1 j) := by
  rw [V_bias2]
  exact shapeCast_a_1a_apply _ _ u j

end Entries

end Cert.KernelIdeal.HostSide

end
-- ==== Proof.RefSide.lean ====
/-
  The reference's value: what its result array holds, entry by entry, as a function of the argument arrays.

  Row `R = 50 b + p` of the gathered table rows goes through the projection head and is scaled to unit length;
  entry `(b, p, j)` of the result is output `j` of that row, or zero where the tag id at `(b, p)` is negative. The
  reference takes the cube of a hidden value as `(h · h) · h`; a product of extended reals commutes, so that is the
  head's `h · (h · h)`. Its sum of squares starts from the zero word, which is the extended real zero.
-/
import proofs.«425311_j56495999811635_1_alg».proof.Proof.Gen.ReferenceIdeal.Run
import proofs.«425311_j56495999811635_1_alg».proof.Proof.Gen.ReferenceIdeal.Read
import proofs.«425311_j56495999811635_1_alg».proof.Proof.Head
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open scoped BigOperators
open Cert.Head (rowOf)

variable (x0 : (⟨S100000x512, .f32⟩ : BufTy).Contents (Elt Ideal)) (x1 : (⟨S512x1024, .f32⟩ : BufTy).Contents (Elt Ideal))
  (x2 : (⟨S1024, .f32⟩ : BufTy).Contents (Elt Ideal)) (x3 : (⟨S1024x256, .f32⟩ : BufTy).Contents (Elt Ideal))
  (x4 : (⟨S256, .f32⟩ : BufTy).Contents (Elt Ideal)) (x5 : (⟨S1024x50, .i32⟩ : BufTy).Contents (Elt Ideal))

/-- The weights and biases as functions of plain coordinates. -/
abbrev W1 : Fin 512 → Fin 1024 → EReal := fun k n => x1 (ix2 k n)
abbrev B1 : Fin 1024 → EReal := fun n => x2 (ix1 n)
abbrev W2 : Fin 1024 → Fin 256 → EReal := fun n j => x3 (ix2 n j)
abbrev B2 : Fin 256 → EReal := fun j => x4 (ix1 j)
/-- Row `R` of the gathered table rows. -/
abbrev row (R : Fin 51200) : Fin 512 → EReal := fun k => val_main_v11 (F := Ideal) x0 x5 (ix2 R k)

theorem pre1_apply (R : Fin 51200) (n : Fin 1024) :
    val_main_v15 (F := Ideal) x0 x1 x2 x5 (ix2 R n) = (∑ k : Fin 512, row x0 x5 R k * W1 x1 k n) + B1 x2 n := by
  rw [val_main_v15_apply, val_main_v12_apply, val_main_v14_apply, val_main_v13_apply]
  refine congrArg₂ (· + ·) (Finset.sum_congr rfl fun k _ => congrArg₂ (· * ·) (congrArg _ ?_) (congrArg _ ?_)) (congrArg _ ?_)
  · funext a; match a with
    | ⟨0, _⟩ => rfl
    | ⟨1, _⟩ => rfl
  · funext a; match a with
    | ⟨0, _⟩ => rfl
    | ⟨1, _⟩ => rfl
  · funext a; match a with
    | ⟨0, _⟩ => rfl

theorem act_apply (i : S51200x1024.Idx) :
    val_main_v28 (F := Ideal) x0 x1 x2 x5 i = Head.gelu (val_main_v15 (F := Ideal) x0 x1 x2 x5 i) := by
  rw [val_main_v28_apply, val_main_v27_apply, val_main_v26_apply, val_main_v25_apply, val_main_v24_apply, val_main_v23_apply,
    val_main_v22_apply, val_main_v21_apply, val_main_v20_apply, val_main_v19_apply, val_main_v18_apply, val_main_v17_apply,
    val_main_v16_apply, val_main_cst_apply, val_main_cst_3_apply, val_main_cst_4_apply, val_main_cst_5_apply]
  generalize val_main_v15 (F := Ideal) x0 x1 x2 x5 i = h
  unfold Head.gelu
  rw [← mul_comm (h * h) h]
  rfl

theorem pre2_apply (R : Fin 51200) (j : Fin 256) :
    val_main_v32 (F := Ideal) x0 x1 x2 x3 x4 x5 (ix2 R j) = Head.proj (W1 x1) (B1 x2) (W2 x3) (B2 x4) (row x0 x5 R) j := by
  rw [val_main_v32_apply, val_main_v29_apply, val_main_v31_apply, val_main_v30_apply]
  unfold Head.proj Head.hidden
  refine congrArg₂ (· + ·) (Finset.sum_congr rfl fun n _ => congrArg₂ (· * ·) ?_ (congrArg _ ?_)) (congrArg _ ?_)
  · rw [act_apply]
    have e : lidx_main_v29 (ix2 R j) n = ix2 R n := by
      funext a; match a with
      | ⟨0, _⟩ => rfl
      | ⟨1, _⟩ => rfl
    rw [e, pre1_apply]
  · funext a; match a with
    | ⟨0, _⟩ => rfl
    | ⟨1, _⟩ => rfl
  · funext a; match a with
    | ⟨0, _⟩ => rfl

theorem len_apply (R : Fin 51200) (u : Fin 1) :
    val_main_v35 (F := Ideal) x0 x1 x2 x3 x4 x5 (ix2 R u) = Head.len (W1 x1) (B1 x2) (W2 x3) (B2 x4) (row x0 x5 R) := by
  rw [val_main_v35_apply, val_main_v33_apply, val_main_call0_v2_apply, val_main_call0_v1_apply, val_main_v34_apply, val_main_cst_6_apply,
    val_main_call0_cst_apply]
  unfold Head.len
  refine congrArg₂ max (congrArg Ideal.sqrt ?_) rfl
  show Ideal.ofBits .f32 0x00000000#32 + _ = _
  rw [Ideal.ofBits_zero_f32, zero_add]
  refine Finset.sum_congr rfl fun j _ => ?_
  rw [val_main_call0_v0_apply]
  have e : idx_main_call0_v1 (idx_main_call0_v2 (ix2 R u)) j = ix2 R j := by
    funext a; match a with
    | ⟨0, _⟩ => rfl
    | ⟨1, _⟩ => rfl
  rw [e, pre2_apply]
  rfl

/-- Entry `(b, p, j)` of the reference's result. -/
theorem result_apply (b : Fin 1024) (p : Fin 50) (j : Fin 256) :
    val_main_v40 (F := Ideal) x0 x1 x2 x3 x4 x5 (ix3 b p j)
      = Scalar.select (IntOp.cmpi .slt (x5 (ix2 b p)) 0#32) (Ideal.ofBits .f32 0x00000000#32)
          (Head.unitRow (W1 x1) (B1 x2) (W2 x3) (B2 x4) (row x0 x5 (rowOf b p)) j) := by
  rw [val_main_v40_apply, val_main_call1_v1_apply, val_main_v39_apply, val_main_v1_apply, val_main_v0_apply, val_main_c_apply,
    val_main_call1_v2_apply, val_main_v38_apply, val_main_v37_apply, val_main_v36_apply]
  have e1 : idx_main_v39 (idx_main_call1_v1 (ix3 b p j)) = ix2 b p := by
    funext a; match a with
    | ⟨0, _⟩ => rfl
    | ⟨1, _⟩ => rfl
  have e2 : idx_main_v38 (ix3 b p j) = ix2 (rowOf b p) j := by
    funext a; match a with
    | ⟨0, _⟩ => exact Fin.ext (by show ((b.val * 50 + p.val) * 256 + j.val) / 256 = b.val * 50 + p.val; have := j.isLt; omega)
    | ⟨1, _⟩ => exact Fin.ext (by show ((b.val * 50 + p.val) * 256 + j.val) % 256 = j.val; have := j.isLt; omega)
  have e3 : idx_main_v36 (ix2 (rowOf b p) j) = ix2 (rowOf b p) (0 : Fin 1) := by
    funext a; match a with
    | ⟨0, _⟩ => rfl
    | ⟨1, _⟩ => rfl
  rw [e1, e2, e3, len_apply, pre2_apply]
  rfl

end Cert.ReferenceIdeal.RefValue

end
-- ==== Proof.PreRead.lean ====
/-
  The precondition read back: every tag id, as a signed integer, is below the table's height 100000.

  The precondition is the conjunction of the finiteness tests of the float inputs with `all (tag_ids < 100000)`; its
  last conjunct is a reduction by `and` over every entry of the comparison, so the whole being 1 makes every entry 1.
-/
import proofs.«425311_j56495999811635_1_alg».proof.Pre_finite_inputs
import Idealize.ShloMosaic.Lib.ReduceAll
import Idealize.ShloMosaic.Lib.ValueIdx

namespace Cert.PreRead

open Idealize.ShloMosaic Cert.Pre_finite_inputs

variable [Cert.Pre_finite_inputs.Facts]

instance : Subsingleton (Cert.Pre_finite_inputs.S_).Idx := ⟨fun a b => funext fun d => d.elim0⟩

theorem tag_lt {F : FTy → Type} [FloatOps F] (a0 : FVec F S100000x512 .f32) (a1 : FVec F S512x1024 .f32) (a2 : FVec F S1024 .f32)
    (a3 : FVec F S1024x256 .f32) (a4 : FVec F S256 .f32) (tag : IVec S1024x50 32)
    (h : Cert.Pre_finite_inputs.fn (F := F) a0 a1 a2 a3 a4 tag = fun _ => 1#1) (i : S1024x50.Idx) :
    IntOp.cmpi .slt (tag i) 100000#32 = 1#1 := by
  have e := congrFun h ValueIdx.ix0
  dsimp only [Cert.Pre_finite_inputs.fn, Cert.Pre_finite_inputs.fn_part1] at e
  have e2 := (IntOp.andi_eq_one.1 e).2
  exact Host.reduce_andi_all _ _ _ _ _ e2 i

end Cert.PreRead
-- ==== Proof.Bridge.lean ====
/-
  The kernel's result is the reference's, entry by entry.

  Under the precondition every tag id is below the table's height, so the kernel's gather fills no row and both programs
  read the same table rows with the same index words. Both then apply the same projection head to row `50 b + p` and
  scale it to unit length. The kernel multiplies the row by the factor 1 or 0 of "the tag id is not negative"; the
  reference selects zero where the id is negative. On the extended reals `y · 1 = y` and `y · 0 = 0` for every `y`,
  so the two agree.
-/
import proofs.«425311_j56495999811635_1_alg».proof.Defs
import proofs.«425311_j56495999811635_1_alg».proof.Proof.KernelArray
import proofs.«425311_j56495999811635_1_alg».proof.Proof.KernelHost
import proofs.«425311_j56495999811635_1_alg».proof.Proof.RefSide
import proofs.«425311_j56495999811635_1_alg».proof.Proof.PreRead
import proofs.«425311_j56495999811635_1_alg».proof.Proof.Gen.Pre_finite_inputs
import Idealize.ShloMosaic.PureOps.Ideal.Laws

noncomputable section

namespace Cert.Bridge

open Idealize.ShloMosaic Idealize.ShloMosaic.TcCoe Idealize.SL.Sem Idealize.ShloMosaic.ValueIdx
open Cert.KernelIdeal Cert.KernelIdeal.Gen Cert.Head

/-- A row times the factor of a mask bit's complement is the row where the bit is clear and zero where it is set. -/
theorem mask_mul (b : BitVec 1) (y : EReal) :
    y * FloatOps.uitofp (F := Ideal) .f32 (~~~ b) = Scalar.select b (Ideal.ofBits .f32 0x00000000#32) y := by
  rcases (by decide : ∀ b : BitVec 1, b = 0#1 ∨ b = 1#1) b with rfl | rfl
  · show y * (((~~~ (0#1 : BitVec 1)).toNat : ℝ) : EReal) = _
    rw [show (~~~ (0#1 : BitVec 1)).toNat = 1 from by decide, select_zero]
    simp
  · show y * (((~~~ (1#1 : BitVec 1)).toNat : ℝ) : EReal) = _
    rw [show (~~~ (1#1 : BitVec 1)).toNat = 0 from by decide, select_one, Ideal.ofBits_zero_f32]
    simp

variable (m : (ℓ : Loc nD τ sig) → Buf (Elt Ideal) ℓ)

/-- The kernel's gather and the reference's read the same rows: the same table, the same index words. -/
theorem gather_eq (c : Dev nD) :
    (Host.gather gather_S100000x512_S51200x1_S51200x512_1_0_n_n_0_1_1512 (m ((c : Thread nD τ).loc main_arg0)) (HostSide.idxCol m c)
      : S51200x512.Idx → EReal)
      = Cert.ReferenceIdeal.Read.val_main_v11 (F := Ideal) (m ((c : Thread nD τ).loc main_arg0)) (m ((c : Thread nD τ).loc main_arg5)) := rfl

/-- The kernel's result array is the reference's stage of the same arguments. -/
theorem result_eq (hpre : Cert.Pre_KernelIdeal m) (c : Dev nD) :
    (Whole.result m c : S1024x50x256.Idx → EReal)
      = Cert.ReferenceIdeal.Read.val_main_v40 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  have hlt := Cert.PreRead.tag_lt _ _ _ _ _ _ (hpre c)
  funext i
  obtain ⟨b, p, j, rfl⟩ : ∃ (b : Fin 1024) (p : Fin 50) (j : Fin 256), i = ix3 b p j := ⟨i 0, i 1, i 2, eq_ix3 i⟩
  rw [Cert.ReferenceIdeal.RefValue.result_apply]
  have hcast : (Whole.result m c : S1024x50x256.Idx → EReal) (ix3 b p j) = Whole.region m c (ix2 (rowOf b p) j) := by
    show shapeCast S1024x50x256 (Whole.region m c) shapeCasts_S51200x256_S1024x50x256 (ix3 b p j) = _
    exact shapeCast_apply _ _ _ _ (by
      rw [Shape.rowMajor_val_two, Shape.rowMajor_val_three]
      show (b.val * 50 + p.val) * 256 + j.val = (b.val * 50 + p.val) * 256 + j.val
      rfl)
  rw [hcast, Whole.region_apply]
  unfold Whole.regionAt
  have hk : Whole.aKeep m c (ix2 (rowOf b p) (0 : Fin 1))
      = FloatOps.uitofp (F := Ideal) .f32 (~~~ IntOp.cmpi .slt (m ((c : Thread nD τ).loc main_arg5) (ix2 b p)) 0#32) :=
    HostSide.keep_apply m c b p 0
  rw [hk, mask_mul]
  refine congrArg (Scalar.select _ _) ?_
  have eW1 : Row.W1 (Whole.aW1 m c) = Cert.ReferenceIdeal.RefValue.W1 (m ((c : Thread nD τ).loc main_arg1)) := by
    funext k n; exact congrFun (V_main_arg1 m c) (ix2 k n)
  have eW2 : Row.W2 (Whole.aW2 m c) = Cert.ReferenceIdeal.RefValue.W2 (m ((c : Thread nD τ).loc main_arg3)) := by
    funext n q; exact congrFun (V_main_arg3 m c) (ix2 n q)
  have eB1 : Row.B1 (Whole.aB1 m c) = Cert.ReferenceIdeal.RefValue.B1 (m ((c : Thread nD τ).loc main_arg2)) := by
    funext n; exact HostSide.bias1_apply m c 0 n
  have eB2 : Row.B2 (Whole.aB2 m c) = Cert.ReferenceIdeal.RefValue.B2 (m ((c : Thread nD τ).loc main_arg4)) := by
    funext q; exact HostSide.bias2_apply m c 0 q
  have eRow : (fun k => Whole.aRows m c (ix2 (rowOf b p) k))
      = Cert.ReferenceIdeal.RefValue.row (m ((c : Thread nD τ).loc main_arg0)) (m ((c : Thread nD τ).loc main_arg5)) (rowOf b p) := by
    funext k
    exact (HostSide.rows_apply m c hlt (rowOf b p) k).trans (congrFun (gather_eq m c) (ix2 (rowOf b p) k))
  rw [eW1, eW2, eB1, eB2, eRow]

end Cert.Bridge

end
-- ==== Proof.lean ====
/-
  The claims of this certificate, proved.

  Both programs gather one table row per tag id (the id clamped below at zero), pass the row through a two-layer
  projection head with a tanh-form GELU between the layers, scale the 256 outputs to unit length, and zero the rows
  whose tag id is negative. The kernel does the head in one region of a hundred grid points of 512 rows each, the
  reference in plain array operations. At the ideal values a change of float format is the identity, both matrix
  products are the sums `Σₖ x (r, k) · w (k, n)`, and the row's length is the square root of the sum of the row's
  squares, so row by row the two compute one function (Proof/Head.lean). The kernel's gather fills a row with the
  junk value when its index word is no row position of the table, which the reference's gather does not; the
  precondition keeps every tag id below the table's height, where no row is filled (Proof/KernelHost.lean). The
  kernel's multiplication by the factor 1 or 0 is the reference's selection of zero, because `y · 1 = y` and
  `y · 0 = 0` for every extended real `y` (Proof/Bridge.lean).
-/
import proofs.«425311_j56495999811635_1_alg».proof.Defs
import proofs.«425311_j56495999811635_1_alg».proof.Proof.Gen.Kernel
import proofs.«425311_j56495999811635_1_alg».proof.Proof.Gen.Kernel.Skeleton
import proofs.«425311_j56495999811635_1_alg».proof.Proof.Gen.Kernel.Launch
import proofs.«425311_j56495999811635_1_alg».proof.Proof.Gen.Kernel.Points
import proofs.«425311_j56495999811635_1_alg».proof.Proof.Gen.Kernel.Frame
import proofs.«425311_j56495999811635_1_alg».proof.Proof.Gen.KernelIdeal
import proofs.«425311_j56495999811635_1_alg».proof.Proof.Gen.KernelIdeal.Skeleton
import proofs.«425311_j56495999811635_1_alg».proof.Proof.Gen.KernelIdeal.Launch
import proofs.«425311_j56495999811635_1_alg».proof.Proof.Gen.KernelIdeal.Points
import proofs.«425311_j56495999811635_1_alg».proof.Proof.Gen.KernelIdeal.Frame
import proofs.«425311_j56495999811635_1_alg».proof.Proof.Gen.ReferenceIdeal
import proofs.«425311_j56495999811635_1_alg».proof.Proof.Gen.ReferenceIdeal.Run
import proofs.«425311_j56495999811635_1_alg».proof.Proof.Gen.ReferenceIdeal.Read
import proofs.«425311_j56495999811635_1_alg».proof.Proof.Gen.Pre_finite_inputs
import proofs.«425311_j56495999811635_1_alg».proof.Proof.KernelArray
import proofs.«425311_j56495999811635_1_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, with every tag id below the table's height, the two programs end
    with one result array: the reference's stage of the kernel's arguments. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v40_eq, h0, h1, h2, h3, h4, h5]
  exact (Cert.Bridge.result_eq m hpre c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
